-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 38
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostStage.lean ====
/-
  The host stage in front of the dense kernel. Before the one pallas_call, @main gathers the source node's
  feature row for every edge, adds the rows into their destination nodes, counts each node's incoming edges,
  clamps the count below at one and divides: the mean of the in-neighbours' features, `agg`. Nothing below opens
  that chain: it is named once, as ONE function of the node features and the edge list, and the kernel's second
  window is shown to stage exactly that array. The two bias vectors reach the kernel as 1 × 128 rows.
-/
import proofs.«173330_j3384434229646_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Sage

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The mean of the in-neighbours' feature rows: row `n` is the sum of `x[src e]` over the edges `e` with
    `dst e = n` (a negative source index counted from the end), divided by `max (number of such edges) 1`. -/
def agg (x0 : (⟨S100000x128, .f32⟩ : BufTy).Contents (Elt F)) (x1 : (⟨S2x1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (Host.gather gather_S100000x128_S1600000x1_S1600000x128_1_0_n_n_0_1_1128 (x0) (broadcastInDim S1600000x1 ![0] bcast_S1600000_S1600000x1_0 (select (cmpi .slt (shapeCast _ (extractStridedSlice S1x1600000 ![0, 0] (x1) slices_S2x1600000_S1x1600000_0_0) shapeCasts_S1x1600000_S1600000) (broadcastInDim S1600000 ![] bcast_S_S1600000 (constantI S_ 32 0#32))) (addi (shapeCast _ (extractStridedSlice S1x1600000 ![0, 0] (x1) slices_S2x1600000_S1x1600000_0_0) shapeCasts_S1x1600000_S1600000) (broadcastInDim S1600000 ![] bcast_S_S1600000 (constantI S_ 32 100000#32))) (shapeCast _ (extractStridedSlice S1x1600000 ![0, 0] (x1) slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] (x1) slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

variable (m : (ℓ : Loc nD τ sig) → Buf (Elt F) ℓ)

/-- The array the kernel's second window stages is `agg` of the node features and the edge list as launched. -/
theorem V_agg (c : Dev nD) :
    (V m c main_v22 : (⟨S100000x128, .f32⟩ : BufTy).Contents (Elt F))
      = agg (m ((c : Thread nD τ).loc main_arg0)) (m ((c : Thread nD τ).loc main_arg1)) := by
  unfold agg
  dsimp only [Gen.V, Gen.hostOps0]
  after_results_simp
  rfl

/-- The self bias reaches the kernel as a 1 × 128 row: entry `(0, q)` is `b_self q`. -/
theorem V_bself (c : Dev nD) (q : Fin 128) :
    (V m c main_v23 : (⟨S1x128, .f32⟩ : BufTy).Contents (Elt F)) (ix2 (0 : Fin 1) q)
      = (m ((c : Thread nD τ).loc main_arg3) : (⟨S128, .f32⟩ : BufTy).Contents (Elt F)) (ix1 q) := by
  have e : (V m c main_v23 : (⟨S1x128, .f32⟩ : BufTy).Contents (Elt F))
      = shapeCast _ (m ((c : Thread nD τ).loc main_arg3) : (⟨S128, .f32⟩ : BufTy).Contents (Elt F)) shapeCasts_S128_S1x128 := by
    dsimp only [Gen.V, Gen.hostOps0]
    after_results_simp
    rfl
  rw [e]
  exact shapeCast_apply _ shapeCasts_S128_S1x128 _ _
    (by rewrite [Shape.rowMajor_val_two, Shape.rowMajor_val_one]; show q.val = 0 * 128 + q.val; omega)

/-- The neighbour bias likewise: entry `(0, q)` is `b_neigh q`. -/
theorem V_bneigh (c : Dev nD) (q : Fin 128) :
    (V m c main_v24 : (⟨S1x128, .f32⟩ : BufTy).Contents (Elt F)) (ix2 (0 : Fin 1) q)
      = (m ((c : Thread nD τ).loc main_arg5) : (⟨S128, .f32⟩ : BufTy).Contents (Elt F)) (ix1 q) := by
  have e : (V m c main_v24 : (⟨S1x128, .f32⟩ : BufTy).Contents (Elt F))
      = shapeCast _ (m ((c : Thread nD τ).loc main_arg5) : (⟨S128, .f32⟩ : BufTy).Contents (Elt F)) shapeCasts_S128_S1x128 := by
    dsimp only [Gen.V, Gen.hostOps0]
    after_results_simp
    rfl
  rw [e]
  exact shapeCast_apply _ shapeCasts_S128_S1x128 _ _
    (by rewrite [Shape.rowMajor_val_two, Shape.rowMajor_val_one]; show q.val = 0 * 128 + q.val; omega)

end Cert.KernelIdeal.Sage

end
-- ==== Proof.Spec.lean ====
/-
  One GraphSAGE layer with mean aggregation, entry by entry, over the extended reals.
  For node `p` and output feature `q`:
      out p q = max ( ((Σₖ x p k · W_self k q) + b_self q) + (Σₖ agg p k · W_neigh k q) + b_neigh q , 0 )
  where `agg` is the array of the in-neighbours' mean features. The two sums, the two biases and the rectifier
  are taken in exactly this grouping, so no law of arithmetic is needed to compare two programs that both
  compute it this way: only that each of them does.
-/
import Idealize.ShloMosaic.PureOps.Ideal
import Idealize.ShloMosaic.Lib.ValueIdx

noncomputable section

open scoped BigOperators

namespace Cert.Sage

open Idealize.ShloMosaic Idealize.ShloMosaic.ValueIdx

/-- Node features and aggregated features: 100000 nodes × 128 features. -/
abbrev Nodes : Shape := ⟨2, ![100000, 128]⟩
/-- A weight matrix: 128 input features × 128 output features. -/
abbrev Weights : Shape := ⟨2, ![128, 128]⟩
/-- A bias vector: 128 output features. -/
abbrev Bias : Shape := ⟨1, ![128]⟩

/-- Entry `(p, q)` of the layer's output. -/
def entry (x agg : Nodes.Idx → EReal) (Ws Wn : Weights.Idx → EReal) (bs bn : Bias.Idx → EReal)
    (p : Fin 100000) (q : Fin 128) : EReal :=
  max ((((∑ k : Fin 128, x (ix2 p k) * Ws (ix2 k q)) + bs (ix1 q))
        + ∑ k : Fin 128, agg (ix2 p k) * Wn (ix2 k q)) + bn (ix1 q)) 0

/-- The layer's output array. -/
def layer (x agg : Nodes.Idx → EReal) (Ws Wn : Weights.Idx → EReal) (bs bn : Bias.Idx → EReal) :
    Nodes.Idx → EReal :=
  fun i => entry x agg Ws Wn bs bn (i 0) (i 1)

theorem layer_apply (x agg : Nodes.Idx → EReal) (Ws Wn : Weights.Idx → EReal) (bs bn : Bias.Idx → EReal)
    (p : Fin 100000) (q : Fin 128) : layer x agg Ws Wn bs bn (ix2 p q) = entry x agg Ws Wn bs bn p q := rfl

end Cert.Sage

end
-- ==== Proof.Blocks.lean ====
/-
  Where each window's block sits. The grid has 20 points; at point `t` the node features, the aggregated
  features and the output are at row block `t` (rows `5000·t … 5000·t + 4999`), the two weight matrices and
  the two bias rows at their one block. So the blocks the body loads are those rows of the arrays as launched,
  the whole weight matrices, and the bias vectors laid out as rows.
-/
import proofs.«173330_j3384434229646_1_alg».proof.Proof.Gen.KernelIdeal.Frame
import proofs.«173330_j3384434229646_1_alg».proof.Proof.HostStage
import proofs.«173330_j3384434229646_1_alg».proof.Proof.Spec

set_option maxRecDepth 16384

noncomputable section

namespace Cert.KernelIdeal.Sage

open Cert.KernelIdeal Cert.KernelIdeal.Gen
open Idealize.ShloMosaic Idealize.ShloMosaic.TcCoe Idealize.SL.Sem Idealize.ShloMosaic.ValueIdx
open Cert.Sage

variable (m : (ℓ : Loc nD τ sig) → Buf (Elt Ideal) ℓ)

/-- The printed index maps over the 20 grid points: the three row-blocked windows sit at row block `t`, the
    weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `5000·t + p` of the array. -/
def row (t : Fin cfg0.N) (p : Fin 5000) : Fin 100000 :=
  ⟨5000 * t.val + p.val, by
    have h : t.val < 20 := Nat.lt_of_lt_of_eq t.isLt (N_0 : cfg0.N = 20)
    have := p.isLt
    omega⟩

theorem row_val (t : Fin cfg0.N) (p : Fin 5000) : (row t p).val = 5000 * t.val + p.val := rfl

/-- The feature block at point `t`: rows `5000·t …` of the node features as launched. -/
theorem xblk_entry (c : Dev nD) (t : Fin cfg0.N) (p : Fin 5000) (k : Fin 128) :
    (iblk m c 0 t : Vec Ideal S5000x128 .f32) (ix2 p k)
      = ((m ((c : Thread nD τ).loc main_arg0)) : Nodes.Idx → EReal) (ix2 (row t p) k) := by
  have he : ((cfg0.win 0).blk t).view.emb (ix2 p k) = ix2 (row t p) k := by
    obtain ⟨x00, x01, x10, x11, x20, x21, x30, x31, x40, x41, x50, x51, x60, x61⟩ := idx_facts t
    funext a
    apply Fin.ext
    match a with
    | ⟨0, _⟩ => show win0_0.index t (0 : Fin 2) * 5000 + 1 * p.val = 5000 * t.val + p.val; rw [x00]; omega
    | ⟨1, _⟩ => show win0_0.index t (1 : Fin 2) * 128 + 1 * k.val = k.val; rw [x01]; omega
  unfold iblk
  rw [View.read_apply, he]
  show V m c main_arg0 _ = _
  rw [V_main_arg0]

/-- Entry `(p, k)` of point `t`'s block of window 1 sits at row `5000·t + p`, column `k` of its array. -/
theorem ablk_emb (t : Fin cfg0.N) (p : Fin 5000) (k : Fin 128) :
    ((cfg0.win 1).blk t).view.emb (ix2 p k) = ix2 (row t p) k := by
  obtain ⟨x00, x01, x10, x11, x20, x21, x30, x31, x40, x41, x50, x51, x60, x61⟩ := idx_facts t
  funext a
  apply Fin.ext
  match a with
  | ⟨0, _⟩ => show win0_1.index t (0 : Fin 2) * 5000 + 1 * p.val = 5000 * t.val + p.val; rw [x10]; omega
  | ⟨1, _⟩ => show win0_1.index t (1 : Fin 2) * 128 + 1 * k.val = k.val; rw [x11]; omega

/-- Window 1's block at point `t`, read off ANY contents `X` of its array: rows `5000·t …` of `X`. -/
theorem ablk_read (t : Fin cfg0.N) (X : (⟨S100000x128, .f32⟩ : BufTy).Contents (Elt Ideal)) (p : Fin 5000) (k : Fin 128) :
    (((cfg0.win 1).blk t).view.read (Elt Ideal) X : Vec Ideal S5000x128 .f32) (ix2 p k) = X (ix2 (row t p) k) := by
  rw [View.read_apply, ablk_emb]
  rfl

/-- Window 1's array, as the region finds it, is `agg` of the features and the edge list as launched. -/
theorem agg_at (c : Dev nD) (x : S100000x128.Idx) :
    V m c (Pipeline.arrRef spec0 (1 : Fin cfg0.W)) x
      = agg (m ((c : Thread nD τ).loc main_arg0)) (m ((c : Thread nD τ).loc main_arg1)) x :=
  congrFun (V_agg m c) x

/-- The aggregate block at point `t`: the same rows of `agg`. -/
theorem ablk_entry (c : Dev nD) (t : Fin cfg0.N) (p : Fin 5000) (k : Fin 128) :
    (iblk m c 1 t : Vec Ideal S5000x128 .f32) (ix2 p k)
      = (agg (m ((c : Thread nD τ).loc main_arg0)) (m ((c : Thread nD τ).loc main_arg1)) : Nodes.Idx → EReal) (ix2 (row t p) k) := by
  unfold iblk
  exact (ablk_read t (V m c (Pipeline.arrRef spec0 (1 : Fin cfg0.W))) p k).trans (agg_at m c (ix2 (row t p) k))

/-- The self weights' block is the whole matrix. -/
theorem wsblk_entry (c : Dev nD) (t : Fin cfg0.N) (k q : Fin 128) :
    (iblk m c 2 t : Vec Ideal S128x128 .f32) (ix2 k q)
      = ((m ((c : Thread nD τ).loc main_arg2)) : Weights.Idx → EReal) (ix2 k q) := by
  have he : ((cfg0.win 2).blk t).view.emb (ix2 k q) = ix2 k q := by
    obtain ⟨x00, x01, x10, x11, x20, x21, x30, x31, x40, x41, x50, x51, x60, x61⟩ := idx_facts t
    funext a
    apply Fin.ext
    match a with
    | ⟨0, _⟩ => show win0_2.index t (0 : Fin 2) * 128 + 1 * k.val = k.val; rw [x20]; omega
    | ⟨1, _⟩ => show win0_2.index t (1 : Fin 2) * 128 + 1 * q.val = q.val; rw [x21]; omega
  unfold iblk
  rw [View.read_apply, he]
  show V m c main_arg2 _ = _
  rw [V_main_arg2]

/-- The neighbour weights' block is the whole matrix. -/
theorem wnblk_entry (c : Dev nD) (t : Fin cfg0.N) (k q : Fin 128) :
    (iblk m c 4 t : Vec Ideal S128x128 .f32) (ix2 k q)
      = ((m ((c : Thread nD τ).loc main_arg4)) : Weights.Idx → EReal) (ix2 k q) := by
  have he : ((cfg0.win 4).blk t).view.emb (ix2 k q) = ix2 k q := by
    obtain ⟨x00, x01, x10, x11, x20, x21, x30, x31, x40, x41, x50, x51, x60, x61⟩ := idx_facts t
    funext a
    apply Fin.ext
    match a with
    | ⟨0, _⟩ => show win0_4.index t (0 : Fin 2) * 128 + 1 * k.val = k.val; rw [x40]; omega
    | ⟨1, _⟩ => show win0_4.index t (1 : Fin 2) * 128 + 1 * q.val = q.val; rw [x41]; omega
  unfold iblk
  rw [View.read_apply, he]
  show V m c main_arg4 _ = _
  rw [V_main_arg4]

/-- The self bias row's block is the bias vector. -/
theorem bsblk_entry (c : Dev nD) (t : Fin cfg0.N) (q : Fin 128) :
    (iblk m c 3 t : Vec Ideal S1x128 .f32) (ix2 (0 : Fin 1) q)
      = ((m ((c : Thread nD τ).loc main_arg3)) : Bias.Idx → EReal) (ix1 q) := by
  have he : ((cfg0.win 3).blk t).view.emb (ix2 (0 : Fin 1) q) = ix2 (0 : Fin 1) q := by
    obtain ⟨x00, x01, x10, x11, x20, x21, x30, x31, x40, x41, x50, x51, x60, x61⟩ := idx_facts t
    funext a
    apply Fin.ext
    match a with
    | ⟨0, _⟩ => show win0_3.index t (0 : Fin 2) * 1 + 1 * 0 = 0; rw [x30]
    | ⟨1, _⟩ => show win0_3.index t (1 : Fin 2) * 128 + 1 * q.val = q.val; rw [x31]; omega
  unfold iblk
  rw [View.read_apply, he]
  exact V_bself m c q

/-- The neighbour bias row's block is the bias vector. -/
theorem bnblk_entry (c : Dev nD) (t : Fin cfg0.N) (q : Fin 128) :
    (iblk m c 5 t : Vec Ideal S1x128 .f32) (ix2 (0 : Fin 1) q)
      = ((m ((c : Thread nD τ).loc main_arg5)) : Bias.Idx → EReal) (ix1 q) := by
  have he : ((cfg0.win 5).blk t).view.emb (ix2 (0 : Fin 1) q) = ix2 (0 : Fin 1) q := by
    obtain ⟨x00, x01, x10, x11, x20, x21, x30, x31, x40, x41, x50, x51, x60, x61⟩ := idx_facts t
    funext a
    apply Fin.ext
    match a with
    | ⟨0, _⟩ => show win0_5.index t (0 : Fin 2) * 1 + 1 * 0 = 0; rw [x50]
    | ⟨1, _⟩ => show win0_5.index t (1 : Fin 2) * 128 + 1 * q.val = q.val; rw [x51]; omega
  unfold iblk
  rw [View.read_apply, he]
  exact V_bneigh m c q

/-- Entry `(p, q)` of point `t`'s block of the output window sits at row `5000·t + p`, column `q`. -/
theorem oblk_emb (t : Fin cfg0.N) (p : Fin 5000) (q : Fin 128) :
    ((cfg0.win 6).blk t).view.emb (ix2 p q) = ix2 (row t p) q := by
  obtain ⟨x00, x01, x10, x11, x20, x21, x30, x31, x40, x41, x50, x51, x60, x61⟩ := idx_facts t
  funext a
  apply Fin.ext
  match a with
  | ⟨0, _⟩ => show win0_6.index t (0 : Fin 2) * 5000 + 1 * p.val = 5000 * t.val + p.val; rw [x60]; omega
  | ⟨1, _⟩ => show win0_6.index t (1 : Fin 2) * 128 + 1 * q.val = q.val; rw [x61]; omega

/-- The output window's block at point `t`, read off ANY contents `G` of the result array: rows `5000·t …` of `G`. -/
theorem oblk_read (t : Fin cfg0.N) (G : (⟨S100000x128, .f32⟩ : BufTy).Contents (Elt Ideal)) (p : Fin 5000) (q : Fin 128) :
    (((cfg0.win 6).blk t).view.read (Elt Ideal) G : Vec Ideal S5000x128 .f32) (ix2 p q) = G (ix2 (row t p) q) := by
  rw [View.read_apply, oblk_emb]
  rfl

/-- The output's blocks are whole: what a point writes back is all of what its body stored. -/
theorem cut_entry (t : Fin cfg0.N) (Y : Vec Ideal S5000x128 .f32) (p : Fin 5000) (q : Fin 128) :
    ((cfg0.win 6).cut (grid0.coords t) Y : Vec Ideal S5000x128 .f32) (ix2 p q) = Y (ix2 p q) := rfl

end Cert.KernelIdeal.Sage

end
-- ==== Proof.Payload.lean ====
/-
  What the dense kernel stores, entry by entry. Its body loads a 5000 × 128 block of node features, the matching
  block of aggregated features, both weight matrices and both bias rows, and stores
      max ( ((X·W_self + b_self) + A·W_neigh) + b_neigh , 0 ).
  Over the extended reals the narrowing of the matrix operands to a 16-bit format changes nothing, and a matrix
  product accumulated into zeros is the plain sum over the contracted axis.
-/
import proofs.«173330_j3384434229646_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Sage

open Cert.KernelIdeal Cert.KernelIdeal.Gen Idealize.ShloMosaic Idealize.ShloMosaic.ValueIdx

/-! ## The block matrix product read at an entry -/

theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_contr (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of a 5000 × 128 by 128 × 128 product accumulated into zeros: row `p` against column `q`. -/
theorem matmul_entry {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## A bias row spread over the block -/

/-- A 1 × 128 row broadcast down the 5000 rows of a block: entry `(p, q)` is the row's entry `q`. -/
theorem bias_entry {α : Type} (v : S1x128.Idx → α) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  exact broadcastTo_apply v broadcasts_S1x128_S5000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-! ## The stored value -/

/-- Entry `(p, q)` of what the body stores, from the blocks it loaded. -/
theorem pay_entry (v0 v2 : Vec Ideal S5000x128 .f32) (v5 v7 : Vec Ideal S128x128 .f32) (v11 v16 : Vec Ideal S1x128 .f32)
    (p : Fin 5000) (q : Fin 128) :
    k0_pay1 (F := Ideal) v0 v2 v5 v7 v11 v16 (ix2 p q)
      = max ((((∑ k : Fin 128, v0 (ix2 p k) * v5 (ix2 k q)) + v11 (ix2 (0 : Fin 1) q))
            + ∑ k : Fin 128, v2 (ix2 p k) * v7 (ix2 k q)) + v16 (ix2 (0 : Fin 1) q)) 0 := by
  unfold k0_pay1
  simp only [maximumf_apply, addf_apply, broadcast_apply]
  rw [matmul_entry, matmul_entry, bias_entry, bias_entry]
  simp only [truncf_apply, shapeCast_self]
  show max _ (Ideal.ofBits .f32 0x00000000#32) = _
  rw [Ideal.ofBits_zero_f32]

end Cert.KernelIdeal.Sage

end
-- ==== Proof.KernelSide.lean ====
/-
  The dense kernel's result array. What point `t` writes back is rows `5000·t … 5000·t + 4999` of ONE array,
  the layer formula of the arguments as launched and of `agg`; the 20 row blocks tile the 100000 rows; so after
  the run the result array is that array.
-/
import proofs.«173330_j3384434229646_1_alg».proof.Proof.Gen.KernelIdeal.Value
import proofs.«173330_j3384434229646_1_alg».proof.Proof.Blocks
import proofs.«173330_j3384434229646_1_alg».proof.Proof.Payload

set_option maxRecDepth 16384

noncomputable section

open scoped BigOperators

namespace Cert.KernelIdeal.Sage

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Sage

variable (m : (ℓ : Loc nD τ sig) → Buf (Elt Ideal) ℓ) (ρ : Dev nD → PrngReg)

theorem hz : (![0, 0] : Fin 2 → Nat) = fun _ => 0 := funext fun a => by fin_cases a <;> rfl

/-- If the loaded blocks hold row `r` of the features and of the aggregate, the weights and the biases, the
    stored entry `(p, q)` is the layer's entry `(r, q)`. -/
theorem entry_of_blocks (v0 v2 : Vec Ideal S5000x128 .f32) (v5 v7 : Vec Ideal S128x128 .f32) (v11 v16 : Vec Ideal S1x128 .f32)
    (X A : Nodes.Idx → EReal) (Ws Wn : Weights.Idx → EReal) (bs bn : Bias.Idx → EReal)
    (p : Fin 5000) (q : Fin 128) (r : Fin 100000)
    (hX : ∀ k : Fin 128, v0 (ix2 p k) = X (ix2 r k)) (hA : ∀ k : Fin 128, v2 (ix2 p k) = A (ix2 r k))
    (hWs : ∀ k : Fin 128, v5 (ix2 k q) = Ws (ix2 k q)) (hWn : ∀ k : Fin 128, v7 (ix2 k q) = Wn (ix2 k q))
    (hbs : v11 (ix2 (0 : Fin 1) q) = bs (ix1 q)) (hbn : v16 (ix2 (0 : Fin 1) q) = bn (ix1 q)) :
    k0_pay1 (F := Ideal) v0 v2 v5 v7 v11 v16 (ix2 p q) = entry X A Ws Wn bs bn r q := by
  rw [pay_entry]
  unfold entry
  simp only [hX, hA, hWs, hWn, hbs, hbn]

/-- The layer's output from the arguments as launched. -/
def out (c : Dev nD) : Nodes.Idx → EReal :=
  layer (m ((c : Thread nD τ).loc main_arg0)) (agg (m ((c : Thread nD τ).loc main_arg0)) (m ((c : Thread nD τ).loc main_arg1))) (m ((c : Thread nD τ).loc main_arg2)) (m ((c : Thread nD τ).loc main_arg4)) (m ((c : Thread nD τ).loc main_arg3)) (m ((c : Thread nD τ).loc main_arg5))

theorem out_apply (c : Dev nD) (r : Fin 100000) (q : Fin 128) :
    out m c (ix2 r q) = entry (m ((c : Thread nD τ).loc main_arg0)) (agg (m ((c : Thread nD τ).loc main_arg0)) (m ((c : Thread nD τ).loc main_arg1))) (m ((c : Thread nD τ).loc main_arg2)) (m ((c : Thread nD τ).loc main_arg4)) (m ((c : Thread nD τ).loc main_arg3)) (m ((c : Thread nD τ).loc main_arg5)) r q := rfl

/-- What point `t` writes back is rows `5000·t …` of `out`. -/
theorem flushed_eq (c : Dev nD) (t : Fin cfg0.N) :
    (dats m 0 c).flushed 6 t = ((cfg0.win 6).blk t).view.read (Elt Ideal) (out m c) := by
  rw [flushed6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (cut_entry t _ p q).trans ?_
  refine Eq.trans ?_ (oblk_read t (out m c) p q).symm
  rw [out_apply]
  exact entry_of_blocks (iblk m c 0 t) (iblk m c 1 t) (iblk m c 2 t) (iblk m c 4 t) (iblk m c 3 t) (iblk m c 5 t)
    (m ((c : Thread nD τ).loc main_arg0)) (agg (m ((c : Thread nD τ).loc main_arg0)) (m ((c : Thread nD τ).loc main_arg1))) (m ((c : Thread nD τ).loc main_arg2)) (m ((c : Thread nD τ).loc main_arg4)) (m ((c : Thread nD τ).loc main_arg3)) (m ((c : Thread nD τ).loc main_arg5)) p q (row t p)
    (xblk_entry m c t p) (ablk_entry m c t p) (fun k => wsblk_entry m c t k q) (fun k => wnblk_entry m c t k q)
    (bsblk_entry m c t q) (bnblk_entry m c t q)

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- Every row is in some point's block: row `r` in point `r / 5000`'s. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, -, -, -, -, -, -, e0, e1⟩ := idx_facts ⟨(i 0).val / 5000, hN⟩
  refine ⟨⟨(i 0).val / 5000, hN⟩, flush0_6 _, ?_⟩
  rw [mem_blk]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e1]; omega

/-- After the run the result array is `out`. -/
theorem final (c : Dev nD) : (dats m 0 c).arrAt 6 cfg0.N = out m c :=
  (dats m 0 c).arrAt_eq_of_cover 6 (out m c) (fun t _ => flushed_eq m c t) cover

/-- The kernel's run, read: the result array at the layer formula of the arguments, the arguments unchanged. -/
theorem run : θ_run defs (onTc (τ := τ) (main (F := Ideal))) ⟨m, fun _ => 0, ρ⟩ fun r => ∀ c : Dev nD,
      r.2.mem ((c : Thread nD τ).loc main_v25) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Sage

end
-- ==== Proof.RefSide.lean ====
/-
  The reference computes the layer formula. Read one operation at a time, its result at node `p` and feature
  `q` is the maximum with zero of
      ((Σₖ x p k · W_self k q) + b_self q) + (Σₖ agg p k · W_neigh k q) + b_neigh q,
  where `agg` is the reference's own aggregate stage (the divide that closes its gather and scatter-add chain),
  which is carried whole and never opened.
-/
import proofs.«173330_j3384434229646_1_alg».proof.Proof.Gen.ReferenceIdeal.Read
import proofs.«173330_j3384434229646_1_alg».proof.Proof.Spec
import Idealize.ShloMosaic.PureOps.Ideal.Laws

noncomputable section

open scoped BigOperators

namespace Cert.ReferenceIdeal.Sage

open Cert.ReferenceIdeal Cert.ReferenceIdeal.Gen Cert.ReferenceIdeal.Read Idealize.ShloMosaic Idealize.ShloMosaic.ValueIdx
open Cert.Sage

/-- The reference's result array is the layer formula of its arguments and its aggregate stage. -/
theorem result_is_layer (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v32 (F := Ideal) x0 x1 x2 x3 x4 x5
      = layer x0 (val_main_v22 (F := Ideal) x0 x1) x2 x4 x3 x5 := by
  funext i
  obtain ⟨p, q, rfl⟩ : ∃ (p : Fin 100000) (q : Fin 128), i = ix2 p q := ⟨i 0, i 1, eq_ix2 i⟩
  rw [layer_apply]
  unfold entry
  have el1 : ∀ k : Fin 128, lidx_main_v23 (ix2 p q) k = ix2 p k := fun k =>
    funext fun a => Fin.ext (by match a with | ⟨0, _⟩ => rfl | ⟨1, _⟩ => rfl)
  have er1 : ∀ k : Fin 128, ridx_main_v23 (ix2 p q) k = ix2 k q := fun k =>
    funext fun a => Fin.ext (by match a with | ⟨0, _⟩ => rfl | ⟨1, _⟩ => rfl)
  have el2 : ∀ k : Fin 128, lidx_main_v27 (ix2 p q) k = ix2 p k := fun k =>
    funext fun a => Fin.ext (by match a with | ⟨0, _⟩ => rfl | ⟨1, _⟩ => rfl)
  have er2 : ∀ k : Fin 128, ridx_main_v27 (ix2 p q) k = ix2 k q := fun k =>
    funext fun a => Fin.ext (by match a with | ⟨0, _⟩ => rfl | ⟨1, _⟩ => rfl)
  have eb1 : idx_main_v24 (idx_main_v25 (ix2 p q)) = ix1 q :=
    funext fun a => Fin.ext (by match a with | ⟨0, _⟩ => rfl)
  have eb2 : idx_main_v29 (idx_main_v30 (ix2 p q)) = ix1 q :=
    funext fun a => Fin.ext (by match a with | ⟨0, _⟩ => rfl)
  rw [val_main_v32_apply, val_main_v31_apply, val_main_v28_apply, val_main_v26_apply, val_main_v23_apply,
    val_main_v27_apply, val_main_v25_apply, val_main_v24_apply, val_main_v30_apply, val_main_v29_apply,
    val_main_call0_v0_apply, val_main_call0_cst_apply]
  simp only [el1, er1, el2, er2, eb1, eb2, Ideal.maximumf_def, Ideal.addf_def]
  show max _ (Ideal.ofBits .f32 0x00000000#32) = _
  rw [Ideal.ofBits_zero_f32]

end Cert.ReferenceIdeal.Sage

end
-- ==== Proof.lean ====
/-
  A GraphSAGE layer with mean aggregation: the Pallas program against its jnp reference, over the extended reals.

  Both programs first build, on the host and by the same operations with the same constants, the array `agg` of
  the in-neighbours' mean features (gather the source rows, add them into their destination rows, divide by the
  in-degree clamped below at one). The kernel program then runs one dense kernel over 20 row blocks of 5000
  nodes, the reference two whole matrix products; both form
      max ( ((x·W_self + b_self) + agg·W_neigh) + b_neigh , 0 )
  in this grouping. Over the extended reals the kernel's narrowing of its matrix operands is the identity and a
  product accumulated into zeros is the plain sum over the contracted axis, so entry by entry the two results are
  the same expression of the same arguments: no law of arithmetic is used and the inputs' finiteness is not needed.
  The aggregate is never opened: it is one function of the features and the edge list, the same on both sides.
-/
import proofs.«173330_j3384434229646_1_alg».proof.Defs
import proofs.«173330_j3384434229646_1_alg».proof.Proof.Gen.Kernel
import proofs.«173330_j3384434229646_1_alg».proof.Proof.Gen.Kernel.Skeleton
import proofs.«173330_j3384434229646_1_alg».proof.Proof.Gen.Kernel.Launch
import proofs.«173330_j3384434229646_1_alg».proof.Proof.Gen.Kernel.Points
import proofs.«173330_j3384434229646_1_alg».proof.Proof.Gen.Kernel.Frame
import proofs.«173330_j3384434229646_1_alg».proof.Proof.Gen.KernelIdeal
import proofs.«173330_j3384434229646_1_alg».proof.Proof.Gen.KernelIdeal.Skeleton
import proofs.«173330_j3384434229646_1_alg».proof.Proof.Gen.KernelIdeal.Launch
import proofs.«173330_j3384434229646_1_alg».proof.Proof.Gen.KernelIdeal.Points
import proofs.«173330_j3384434229646_1_alg».proof.Proof.Gen.KernelIdeal.Frame
import proofs.«173330_j3384434229646_1_alg».proof.Proof.Gen.ReferenceIdeal
import proofs.«173330_j3384434229646_1_alg».proof.Proof.Gen.Pre_finite_inputs
import proofs.«173330_j3384434229646_1_alg».proof.Proof.Gen.KernelIdeal.Value
import proofs.«173330_j3384434229646_1_alg».proof.Proof.Gen.ReferenceIdeal.Run
import proofs.«173330_j3384434229646_1_alg».proof.Proof.Gen.ReferenceIdeal.Read
import proofs.«173330_j3384434229646_1_alg».proof.Proof.KernelSide
import proofs.«173330_j3384434229646_1_alg».proof.Proof.RefSide
import Idealize.ShloMosaic.Adequacy
import Idealize.ShloMosaic.Init

noncomputable section

namespace Cert.Proof

open Idealize.ShloMosaic Idealize.ShloMosaic.TcCoe Idealize.SL.Sem

/-- The aggregate is one function in both programs: the kernel program's host stage and the reference's are the
    same operations, constants and dimension numbers, applied to the same two arguments. -/
theorem agg_same (x0 : (⟨Cert.KernelIdeal.S100000x128, .f32⟩ : BufTy).Contents (Elt Ideal))
    (x1 : (⟨Cert.KernelIdeal.S2x1600000, .i32⟩ : BufTy).Contents (Elt Ideal)) :
    Cert.KernelIdeal.Sage.agg (F := Ideal) x0 x1 = Cert.ReferenceIdeal.Read.val_main_v22 (F := Ideal) x0 x1 := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer formula of arguments that agree and of the one aggregate. -/
theorem algebraic : Cert.algebraic_KernelIdeal_ReferenceIdeal := by
  intro m ρ m' ρ' _ hagree
  refine ⟨fun c => Cert.KernelIdeal.Sage.out m c, Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v32_eq, Cert.ReferenceIdeal.Sage.result_is_layer, a0, a1, a2, a3, a4, a5]
  show _ = Cert.KernelIdeal.Sage.out m c
  unfold Cert.KernelIdeal.Sage.out
  rw [agg_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
